-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S32x512 : Shape := ⟨2, ![32, 512]⟩
abbrev S512x32 : Shape := ⟨2, ![512, 32]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x512x56x56 .f32) (main_arg1 : FVec F S32x512 .f32) (main_arg2 : FVec F S512x32 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S32x512x56x56 : Shape := ⟨4, ![32, 512, 56, 56]⟩
abbrev S32x512 : Shape := ⟨2, ![32, 512]⟩
abbrev S512x32 : Shape := ⟨2, ![512, 32]⟩
abbrev S16384x3136 : Shape := ⟨2, ![16384, 3136]⟩
abbrev S16384x1 : Shape := ⟨2, ![16384, 1]⟩
abbrev S1024x3136 : Shape := ⟨2, ![1024, 3136]⟩
abbrev S1024x1 : Shape := ⟨2, ![1024, 1]⟩
abbrev S1024 : Shape := ⟨1, ![1024]⟩
abbrev S32x32 : Shape := ⟨2, ![32, 32]⟩
abbrev S_ : Shape := ⟨0, ![]⟩
abbrev S512x3136 : Shape := ⟨2, ![512, 3136]⟩
abbrev S512x1 : Shape := ⟨2, ![512, 1]⟩

abbrev nBuf : Space → Nat
  | .hbm => 30
  | .vmem => 12
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S16384x3136, .f32⟩
  | .hbm, ⟨4, _⟩ => ⟨S16384x1, .f32⟩
  | .hbm, ⟨5, _⟩ => ⟨S16384x1, .f32⟩
  | .hbm, ⟨6, _⟩ => ⟨S32x512, .f32⟩
  | .hbm, ⟨7, _⟩ => ⟨S32x512, .f32⟩
  | .hbm, ⟨8, _⟩ => ⟨S32x32, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S32x512, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S_, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | .hbm, ⟨27, _⟩ => ⟨S16384x1, .f32⟩
  | .hbm, ⟨28, _⟩ => ⟨S16384x3136, .f32⟩
  | .hbm, ⟨29, _⟩ => ⟨S32x512x56x56, .f32⟩
  | .local _ .vmem, ⟨0, _⟩ => ⟨S1024x3136, .f32⟩
  | .local _ .vmem, ⟨1, _⟩ => ⟨S1024x3136, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S512x3136, .f32⟩
  | .local _ .vmem, ⟨7, _⟩ => ⟨S512x3136, .f32⟩
  | .local _ .vmem, ⟨8, _⟩ => ⟨S512x1, .f32⟩
  | .local _ .vmem, ⟨9, _⟩ => ⟨S512x1, .f32⟩
  | .local _ .vmem, ⟨10, _⟩ => ⟨S512x3136, .f32⟩
  | .local _ .vmem, ⟨11, _⟩ => ⟨S512x3136, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call1_cst : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x3136 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x512x56x56_S16384x3136 : S32x512x56x56.ShapeCasts S16384x3136
  inb_S1024x3136_S1024x3136_0_0 : ∀ a, (![0, 0] : Fin 2 → Nat) a + S1024x3136.size a ≤ S1024x3136.size a
  h_S1024x3136 : 0 < S1024x3136.numel
  shapeCasts_S1024x3136_S1024x3136 : S1024x3136.ShapeCasts S1024x3136
  reduces_S1024x3136_S1024 : S1024x3136.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S16384x1_S32x512 : S16384x1.ShapeCasts S32x512
  bcast_S_S32x32 : S_.BroadcastsInDim S32x32 (![] : Fin 0 → Fin S32x32.rank)
  bcast_S_S32x512 : S_.BroadcastsInDim S32x512 (![] : Fin 0 → Fin S32x512.rank)
  shapeCasts_S32x512_S16384x1 : S32x512.ShapeCasts S16384x1
  inb_S512x3136_S512x3136_0_0 : ∀ a, (![0, 0] : Fin 2 → Nat) a + S512x3136.size a ≤ S512x3136.size a
  h_S512x3136 : 0 < S512x3136.numel
  shapeCasts_S512x3136_S512x3136 : S512x3136.ShapeCasts S512x3136
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3136 : S512x1.Broadcasts S512x3136
  shapeCasts_S16384x3136_S32x512x56x56 : S16384x3136.ShapeCasts S32x512x56x56
  dot_S32x512_S32x512_S32x32_1_1_0_0_n_n_wf : DotDims.WF S32x512 S32x512 S32x32 [1] [1] [0] [0] [] []
  dot_S32x32_S512x32_S32x512_1_1_0_0_n_n_wf : DotDims.WF S32x32 S512x32 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3136.size a ≤ S16384x3136.size a
  hwx0_0 : ∀ i : grid0.Coords, EltTy.bits .f32 = 32 ∨ (Rect.block (s := S16384x3136) S1024x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3136.size a ≤ S16384x3136.size a
  hwx1_0 : ∀ i : grid1.Coords, EltTy.bits .f32 = 32 ∨ (Rect.block (s := S16384x3136) S512x3136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S16384x1.size a
  hwx1_1 : ∀ i : grid1.Coords, EltTy.bits .f32 = 32 ∨ (Rect.block (s := S16384x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x3136.size a ≤ S16384x3136.size a
  hwx1_2 : ∀ i : grid1.Coords, EltTy.bits .f32 = 32 ∨ (Rect.block (s := S16384x3136) S512x3136.size (cc1_transform_2 i) (hinb1_2 i)).WholeWords (EltTy.packing .f32)

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

abbrev win0_0 : Pipeline.Window sig grid0 :=
  Pipeline.Window.ofSpec (Memref.whole main_v0) S1024x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S512x3136.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x56x56 : Shape := ⟨4, ![32, 512, 56, 56]⟩
abbrev S32x512 : Shape := ⟨2, ![32, 512]⟩
abbrev S512x32 : Shape := ⟨2, ![512, 32]⟩
abbrev S_ : Shape := ⟨0, ![]⟩
abbrev S32x32 : Shape := ⟨2, ![32, 32]⟩
abbrev S32x512x1x1 : Shape := ⟨4, ![32, 512, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S_, .f32⟩
  | .hbm, ⟨9, _⟩ => ⟨S32x512, .f32⟩
  | .hbm, ⟨10, _⟩ => ⟨S32x32, .f32⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S32x512, .f32⟩
  | .hbm, ⟨15, _⟩ => ⟨S32x32, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S_, .f32⟩
  | .hbm, ⟨24, _⟩ => ⟨S32x512, .f32⟩
  | .hbm, ⟨25, _⟩ => ⟨S32x512, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S32x512x1x1, .f32⟩
  | .hbm, ⟨30, _⟩ => ⟨S32x512x56x56, .f32⟩
  | .hbm, ⟨31, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_cst : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  reducesTo_S32x512x56x56_S32x512_d2_3 : S32x512x56x56.ReducesTo [2, 3] S32x512
  h_S_ : 0 < S_.numel
  bcast_S_S32x512 : S_.BroadcastsInDim S32x512 (![] : Fin 0 → Fin S32x512.rank)
  bcast_S_S32x32 : S_.BroadcastsInDim S32x32 (![] : Fin 0 → Fin S32x32.rank)
  bcast_S32x512_S32x512x1x1_0_1 : S32x512.BroadcastsInDim S32x512x1x1 (![0, 1] : Fin 2 → Fin S32x512x1x1.rank)
  bcast_S32x512x1x1_S32x512x56x56_0_1_2_3 : S32x512x1x1.BroadcastsInDim S32x512x56x56 (![0, 1, 2, 3] : Fin 4 → Fin S32x512x56x56.rank)
  dot_S32x512_S32x512_S32x32_1_1_0_0_n_n_wf : DotDims.WF S32x512 S32x512 S32x32 [1] [1] [0] [0] [] []
  dot_S32x32_S512x32_S32x512_1_1_0_0_n_n_wf : DotDims.WF S32x32 S512x32 S32x512 [1] [1] [0] [0] [] []

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

class Facts : Prop extends Facts₀ where

variable [Facts]
-- ==== Proof.Spec.lean ====
/-
  The channel-attention block as functions of whole arrays, over literal shapes.

  An input x of shape [32, 512, 56, 56] is read as a matrix of 16384 rows (one per pair of batch and channel)
  and 3136 columns (one per pixel). Each row has a mean and a maximum; the two resulting [32, 512] tables go
  through one shared chain (two matrix products with a rectifier between them, applied to each table, the two
  results added and passed through the logistic function), which gives one factor per row; every entry of x is
  multiplied by its row's factor.
-/
import Idealize.ShloMosaic.Lib.ValueIdx
import Idealize.ShloMosaic.PureOps.Ideal.Laws

noncomputable section

namespace Cert.Cam

open Idealize.ShloMosaic Idealize.ShloMosaic.ValueIdx

/-- The input: batch, channel, height, width. -/
abbrev X4 : Shape := ⟨4, ![32, 512, 56, 56]⟩
/-- The input as rows (batch and channel merged) by pixels (height and width merged). -/
abbrev X2 : Shape := ⟨2, ![16384, 3136]⟩
/-- One number per batch and channel. -/
abbrev C2 : Shape := ⟨2, ![32, 512]⟩
/-- One number per row, as a column. -/
abbrev R1 : Shape := ⟨2, ![16384, 1]⟩
/-- The hidden layer of the shared chain. -/
abbrev H2 : Shape := ⟨2, ![32, 32]⟩
/-- The second weight matrix. -/
abbrev V2 : Shape := ⟨2, ![512, 32]⟩
/-- One number per batch and channel, with two unit axes. -/
abbrev C4 : Shape := ⟨4, ![32, 512, 1, 1]⟩
/-- A scalar. -/
abbrev S0 : Shape := ⟨0, ![]⟩

/-- The sum of row `r` of a matrix of pixels. -/
def rowSum (a : X2.Idx → EReal) (r : Fin 16384) : EReal := ∑ k : Fin 3136, a (ix2 r k)

/-- The maximum of row `r`, starting from minus infinity. -/
def rowMax (a : X2.Idx → EReal) (r : Fin 16384) : EReal :=
  (Finset.univ : Finset (Fin 3136)).fold max (Ideal.ofBits .f32 0xFF800000#32) (fun k => a (ix2 r k))

/-- The column of row means: each row's sum divided by the number of pixels, 3136. -/
def avgCol (a : X2.Idx → EReal) : R1.Idx → EReal :=
  fun i => Ideal.div (rowSum a ⟨(i 0).val, (i 0).isLt⟩) (Ideal.ofBits .f32 0x45440000#32)

/-- The column of row maxima. -/
def maxCol (a : X2.Idx → EReal) : R1.Idx → EReal :=
  fun i => rowMax a ⟨(i 0).val, (i 0).isLt⟩

/-- Every entry of the matrix times its row's factor. -/
def scaleArr (a : X2.Idx → EReal) (g : R1.Idx → EReal) : X2.Idx → EReal :=
  fun i => a i * g (ix2 (⟨(i 0).val, (i 0).isLt⟩ : Fin 16384) (0 : Fin 1))

/-- The shared chain: for each of the two tables, a product with the first weights, the rectifier, a product with
    the second weights; the two results added; then 1 / (1 + exp (-·)). It is carried as one function and never
    opened: both programs apply it to the same weights. -/
def gate (d1 : DotDims C2 C2 H2) (d2 : DotDims H2 V2 C2) (hb : S0.BroadcastsInDim C2 (![] : Fin 0 → Fin C2.rank))
    (hh : S0.BroadcastsInDim H2 (![] : Fin 0 → Fin H2.rank))
    (avg mx w1 : FVec Ideal C2 .f32) (w2 : FVec Ideal V2 .f32) : FVec Ideal C2 .f32 :=
  Host.divf (broadcastInDim C2 ![] hb (constant (F := Ideal) S0 .f32 0x3F800000#32))
    (addf (broadcastInDim C2 ![] hb (constant (F := Ideal) S0 .f32 0x3F800000#32))
      (Host.exp (Host.negf (addf
        (Host.dotGeneral d2 none (maximumf (Host.dotGeneral d1 none avg w1)
          (broadcastInDim H2 ![] hh (constant (F := Ideal) S0 .f32 0x00000000#32))) w2)
        (Host.dotGeneral d2 none (maximumf (Host.dotGeneral d1 none mx w1)
          (broadcastInDim H2 ![] hh (constant (F := Ideal) S0 .f32 0x00000000#32))) w2)))))

end Cert.Cam

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.PoolRegion.lean ====
/-
  The first kernel region, read as a value. Point t of its grid of 16 holds rows 1024 t … 1024 t + 1023 of the pixel
  matrix and writes back, for each of those rows, its mean (the sum of its 3136 entries divided by 3136) into one
  column and its maximum into another. The 16 blocks tile the 16384 rows, so the two output columns end as the
  column of row means and the column of row maxima; the pixel matrix itself is only read.
-/
import proofs.«180165_j8615704396004_1_alg».proof.Proof.Gen.KernelIdeal.Frame
import proofs.«180165_j8615704396004_1_alg».proof.Proof.Spec
import proofs.«180165_j8615704396004_1_alg».proof.Proof.LibLayout
import Idealize.ShloMosaic.Lib.Pipeline.Value
import Idealize.ShloMosaic.Lib.ValueIdx
import Idealize.ShloMosaic.PureOps.Ideal.Laws

set_option maxRecDepth 16384

noncomputable section

namespace Cert.KernelIdeal.PoolRegion

open Cert.KernelIdeal Cert.KernelIdeal.Gen Cert.Cam
open Idealize.ShloMosaic Idealize.ShloMosaic.TcCoe Idealize.ShloMosaic.ValueIdx
open Idealize.SL.Sem
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The reduced row index with the column put back is the entry (p, k). -/
theorem lift_eq (p : Fin 1024) (k : Fin 3136) :
    reduces_S1024x3136_S1024.lift (ix1 p) k = ix2 p k := by
  funext a; apply Fin.ext
  match a with
  | ⟨0, _⟩ => rfl
  | ⟨1, _⟩ => rfl

/-- The body's first stored value at row p: the sum of the block's row p divided by 3136. -/
theorem pay_avg_apply (x0 : Vec Ideal S1024x3136 .f32) (p : Fin 1024) (u : Fin 1) :
    k0_pay2 x0 (ix2 p u)
      = Ideal.div (∑ k : Fin 3136, x0 (ix2 p k)) (Ideal.ofBits .f32 0x45440000#32) := by
  unfold k0_pay2 k0_pay1
  show Ideal.div ((shapeCast S1024x1 (multiReduction (F := Ideal) .add [1] S1024
      (shapeCast S1024x3136 x0 shapeCasts_S1024x3136_S1024x3136) 0x00000000#32 reduces_S1024x3136_S1024 (.inl rfl) rfl)
      shapeCasts_S1024_S1024x1) (ix2 p u)) (Ideal.ofBits .f32 0x45440000#32) = _
  rw [Cert.LibLayout.shapeCast_a_a1_apply, shapeCast_self]
  refine congrArg (fun s => Ideal.div s _) ?_
  refine (Ideal.multiReduction_add_single (φ := .f32) (x0 : FVec Ideal S1024x3136 .f32) 0x00000000#32
    reduces_S1024x3136_S1024 (.inl rfl) rfl (ix1 p)).trans ?_
  exact Finset.sum_congr rfl fun k _ => congrArg x0 (lift_eq p k)

/-- The body's second stored value at row p: the maximum of the block's row p, from minus infinity. -/
theorem pay_max_apply (x0 : Vec Ideal S1024x3136 .f32) (p : Fin 1024) (u : Fin 1) :
    k0_pay3 x0 (ix2 p u)
      = (Finset.univ : Finset (Fin 3136)).fold max (Ideal.ofBits .f32 0xFF800000#32) (fun k => x0 (ix2 p k)) := by
  unfold k0_pay3 k0_pay1
  show (shapeCast S1024x1 (multiReduction (F := Ideal) .maximumf [1] S1024
      (shapeCast S1024x3136 x0 shapeCasts_S1024x3136_S1024x3136) 0xFF800000#32 reduces_S1024x3136_S1024 (.inl rfl) rfl)
      shapeCasts_S1024_S1024x1) (ix2 p u) = _
  rw [Cert.LibLayout.shapeCast_a_a1_apply, shapeCast_self]
  refine (Ideal.multiReduction_maximumf_single (φ := .f32) (x0 : FVec Ideal S1024x3136 .f32) 0xFF800000#32
    reduces_S1024x3136_S1024 (.inl rfl) rfl (ix1 p)).trans ?_
  refine congrArg (fun f => (Finset.univ : Finset (Fin 3136)).fold max _ f) ?_
  exact funext fun k => congrArg x0 (lift_eq p k)

/-- The three index maps over the grid: all windows move along the rows with the point and stay at column block 0. -/
theorem idx_facts : ∀ t : Fin cfg0.N,
    win0_0.index t (0 : Fin 2) = win0_1.index t (0 : Fin 2) ∧ win0_0.index t (1 : Fin 2) = 0
    ∧ win0_2.index t (0 : Fin 2) = win0_1.index t (0 : Fin 2) ∧ win0_2.index t (1 : Fin 2) = 0
    ∧ win0_1.index t (0 : Fin 2) ≤ 15 ∧ win0_1.index t (1 : Fin 2) = 0 :=
  (by decide +kernel : ∀ t : Fin grid0.N, _)

/-- Every block of rows is some point's, for both output columns. -/
theorem idx_onto : ∀ q0 : Fin 16, ∃ t : Fin cfg0.N, win0_1.index t = ![q0.val, 0] ∧ win0_2.index t = ![q0.val, 0] :=
  (by decide +kernel : ∀ q0 : Fin 16, ∃ t : Fin grid0.N, win0_1.index t = ![q0.val, 0] ∧ win0_2.index t = ![q0.val, 0])

/-- One point's mean block, at literal types: if the pixel block holds rows n·1024 … of a matrix `a`, the stored
    value at row p is the mean of row n·1024 + p of `a`. -/
theorem block_avg_eq (a : S16384x3136.Idx → EReal) (n : Nat) (x0 : Vec Ideal S1024x3136 .f32)
    (h0 : ∀ (p : Fin 1024) (k : Fin 3136) (r : Fin 16384), r.val = n * 1024 + p.val → x0 (ix2 p k) = a (ix2 r k))
    (j : S1024x1.Idx) (i : S16384x1.Idx) (hi0 : (i 0).val = n * 1024 + (j 0).val) :
    k0_pay2 x0 j = avgCol a i := by
  obtain ⟨p, u, rfl⟩ : ∃ (p : Fin 1024) (u : Fin 1), j = ix2 p u := ⟨j 0, j 1, eq_ix2 j⟩
  rw [pay_avg_apply]
  unfold avgCol rowSum
  refine congrArg (fun s => Ideal.div s _) ?_
  exact Finset.sum_congr rfl fun k _ => h0 p k ⟨(i 0).val, (i 0).isLt⟩ hi0

/-- The same for the maximum. -/
theorem block_max_eq (a : S16384x3136.Idx → EReal) (n : Nat) (x0 : Vec Ideal S1024x3136 .f32)
    (h0 : ∀ (p : Fin 1024) (k : Fin 3136) (r : Fin 16384), r.val = n * 1024 + p.val → x0 (ix2 p k) = a (ix2 r k))
    (j : S1024x1.Idx) (i : S16384x1.Idx) (hi0 : (i 0).val = n * 1024 + (j 0).val) :
    k0_pay3 x0 j = maxCol a i := by
  obtain ⟨p, u, rfl⟩ : ∃ (p : Fin 1024) (u : Fin 1), j = ix2 p u := ⟨j 0, j 1, eq_ix2 j⟩
  rw [pay_max_apply]
  unfold maxCol rowMax
  refine congrArg (fun f => (Finset.univ : Finset (Fin 3136)).fold max _ f) ?_
  exact funext fun k => h0 p k ⟨(i 0).val, (i 0).isLt⟩ hi0

/-- The pixel block at point t is rows (block index)·1024 … of the pixel matrix as entered. -/
theorem in_block (c : Dev nD) (t : Fin cfg0.N) (p : Fin 1024) (k : Fin 3136) (r : Fin 16384)
    (hr : r.val = win0_1.index t (0 : Fin 2) * 1024 + p.val) :
    iblk0 V c 0 t (ix2 p k) = V c main_v0 (ix2 r k) := by
  obtain ⟨e0, e1, e2, e3, e4, e5⟩ := idx_facts t
  show V c main_v0 (((cfg0.win 0).blk t).view.emb (ix2 p k)) = V c main_v0 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 3136 + 1 * k.val = k.val; omega

/-- WHAT POINT t WRITES BACK to the first output is its block of the column of row means. -/
theorem flushed_avg_eq (c : Dev nD) (t : Fin cfg0.N) :
    (dat0 V c).flushed 1 t = ((cfg0.win 1).blk t).view.read (Elt Ideal) (avgCol (V c main_v0)) := by
  show (cfg0.win 1).cut (grid0.coords t) ((dat0 V c).after 1 t) = _
  rw [after0_1]
  unfold out0_1
  rw [View.canon_unit_zero hz]
  simp only [View.ld_unit_zero (S := S1024x3136) hz]
  obtain ⟨e0, e1, e2, e3, e4, e5⟩ := idx_facts t
  funext j
  show k0_pay2 (iblk0 V c 0 t) j = avgCol (V c main_v0) (((cfg0.win 1).blk t).view.emb j)
  refine block_avg_eq (V c main_v0) (win0_1.index t (0 : Fin 2)) _ (fun p k r hr => in_block V c t p k r hr) j _ ?_
  show win0_1.index t (0 : Fin 2) * 1024 + 1 * (j 0).val = win0_1.index t (0 : Fin 2) * 1024 + (j 0).val
  omega

/-- WHAT POINT t WRITES BACK to the second output is its block of the column of row maxima. -/
theorem flushed_max_eq (c : Dev nD) (t : Fin cfg0.N) :
    (dat0 V c).flushed 2 t = ((cfg0.win 2).blk t).view.read (Elt Ideal) (maxCol (V c main_v0)) := by
  show (cfg0.win 2).cut (grid0.coords t) ((dat0 V c).after 2 t) = _
  rw [after0_2]
  unfold out0_2
  rw [View.canon_unit_zero hz]
  simp only [View.ld_unit_zero (S := S1024x3136) hz]
  obtain ⟨e0, e1, e2, e3, e4, e5⟩ := idx_facts t
  funext j
  show k0_pay3 (iblk0 V c 0 t) j = maxCol (V c main_v0) (((cfg0.win 2).blk t).view.emb j)
  refine block_max_eq (V c main_v0) (win0_1.index t (0 : Fin 2)) _ (fun p k r hr => in_block V c t p k r hr) j _ ?_
  show win0_2.index t (0 : Fin 2) * 1024 + 1 * (j 0).val = win0_1.index t (0 : Fin 2) * 1024 + (j 0).val
  omega

/-- An index of the first output column is in point t's block iff each coordinate is in the block's range. -/
theorem mem_blk1 (t : Fin cfg0.N) (i : S16384x1.Idx) :
    i ∈ ((cfg0.win 1).blk t).view.set ↔ ∀ a : Fin 2, win0_1.index t a * S1024x1.size a ≤ (i a).val
      ∧ (i a).val < win0_1.index t a * S1024x1.size a + S1024x1.size a := by
  show i ∈ ((View.whole main_v1_0).slice (win0_1.rect t)).set ↔ _
  rw [View.set_slice_whole, Rect.mem_set_unit]
  exact Iff.rfl

/-- The same for the second output column. -/
theorem mem_blk2 (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v1_1).slice (win0_2.rect t)).set ↔ _
  rw [View.set_slice_whole, Rect.mem_set_unit]
  exact Iff.rfl

/-- The 16 blocks of 1024 rows cover the first output column. -/
theorem cover1 (i : S16384x1.Idx) :
    ∃ t : Fin cfg0.N, (cfg0.win 1).flush t = true ∧ i ∈ ((cfg0.win 1).blk t).view.set := by
  have hi0 : (i 0).val < 16384 := (i 0).isLt
  have hi1 : (i 1).val < 1 := (i 1).isLt
  obtain ⟨t, ht, -⟩ := idx_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk1]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1 ≤ (i 1).val ∧ (i 1).val < win0_1.index t (1 : Fin 2) * 1 + 1
    omega

/-- And the second. -/
theorem cover2 (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  obtain ⟨t, -, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk2]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1 ≤ (i 1).val ∧ (i 1).val < win0_2.index t (1 : Fin 2) * 1 + 1
    omega

/-- THE FIRST OUTPUT after the region: the column of row means of the pixel matrix as entered. -/
theorem final_avg (c : Dev nD) : (dat0 V c).arrAt 1 cfg0.N = avgCol (V c main_v0) :=
  (dat0 V c).arrAt_eq_of_cover 1 _ (fun t _ => flushed_avg_eq V c t) cover1

/-- THE SECOND OUTPUT after the region: the column of row maxima. -/
theorem final_max (c : Dev nD) : (dat0 V c).arrAt 2 cfg0.N = maxCol (V c main_v0) :=
  (dat0 V c).arrAt_eq_of_cover 2 _ (fun t _ => flushed_max_eq V c t) cover2

/-- The pixel matrix is never written back. -/
theorem noflush0 : ∀ t : Fin cfg0.N, (cfg0.win 0).flush t = false :=
  (by decide +kernel : ∀ t : Fin grid0.N, win0_0.flush t = false)

/-- THE PIXEL MATRIX after the region is as entered. -/
theorem kept0 (c : Dev nD) : (dat0 V c).arrAt 0 cfg0.N = V c main_v0 :=
  funext fun i => ((dat0 V c).arrAt_apply_of_forall_not_mem 0 cfg0.N i fun t _ hf =>
    absurd hf (by rw [noflush0 t]; decide)).trans (congrFun (A_eq0 V c 0) i)

end Cert.KernelIdeal.PoolRegion

end
-- ==== Proof.ScaleRegion.lean ====
/-
  The second kernel region, read as a value. Point t of its grid of 32 holds rows 512 t … 512 t + 511 of the pixel
  matrix and the same rows of the column of factors, and writes back every entry times its row's factor. The 32
  blocks tile the matrix, so the region's output array ends as the matrix scaled row by row.
-/
import proofs.«180165_j8615704396004_1_alg».proof.Proof.Gen.KernelIdeal.Frame
import proofs.«180165_j8615704396004_1_alg».proof.Proof.Spec
import proofs.«180165_j8615704396004_1_alg».proof.Proof.LibLayout
import Idealize.ShloMosaic.Lib.Pipeline.Value
import Idealize.ShloMosaic.Lib.ValueIdx

set_option maxRecDepth 16384

noncomputable section

namespace Cert.KernelIdeal.ScaleRegion

open Cert.KernelIdeal Cert.KernelIdeal.Gen Cert.Cam
open Idealize.ShloMosaic Idealize.ShloMosaic.TcCoe Idealize.ShloMosaic.ValueIdx
open Idealize.SL.Sem
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The body's product at an entry: the pixel block's entry times the factor of its row. -/
theorem pay_apply (x0 : Vec Ideal S512x3136 .f32) (x1 : Vec Ideal S512x1 .f32) (p : Fin 512) (q : Fin 3136) :
    k1_pay1 x0 x1 (ix2 p q) = x0 (ix2 p q) * x1 (ix2 p (0 : Fin 1)) := by
  unfold k1_pay1
  show (shapeCast S512x3136 x0 shapeCasts_S512x3136_S512x3136) (ix2 p q)
      * (broadcastTo S512x3136 (shapeCast S512x1 x1 shapeCasts_S512x1_S512x1) broadcasts_S512x1_S512x3136) (ix2 p q) = _
  rw [shapeCast_self, shapeCast_self, Cert.LibLayout.broadcastTo_a1_ab_apply]

/-- The three index maps over the grid: all windows move along the rows with the point and stay at column block 0. -/
theorem idx_facts : ∀ t : Fin cfg1.N,
    win1_0.index t (0 : Fin 2) = win1_2.index t (0 : Fin 2) ∧ win1_0.index t (1 : Fin 2) = 0
    ∧ win1_1.index t (0 : Fin 2) = win1_2.index t (0 : Fin 2) ∧ win1_1.index t (1 : Fin 2) = 0
    ∧ win1_2.index t (0 : Fin 2) ≤ 31 ∧ win1_2.index t (1 : Fin 2) = 0 :=
  (by decide +kernel : ∀ t : Fin grid1.N, _)

/-- Every block of rows is some point's. -/
theorem idx_onto : ∀ q0 : Fin 32, ∃ t : Fin cfg1.N, win1_2.index t = ![q0.val, 0] :=
  (by decide +kernel : ∀ q0 : Fin 32, ∃ t : Fin grid1.N, win1_2.index t = ![q0.val, 0])

/-- One point's block, at literal types: if the pixel block holds rows n·512 … of a matrix `a` and the factor block
    the same rows of a column `g`, the body's product at (p, q) is `a` scaled by rows at (n·512 + p, q). -/
theorem block_eq (a : S16384x3136.Idx → EReal) (g : S16384x1.Idx → EReal) (n : Nat)
    (x0 : Vec Ideal S512x3136 .f32) (x1 : Vec Ideal S512x1 .f32)
    (h0 : ∀ (p : Fin 512) (q : Fin 3136) (i : S16384x3136.Idx), (i 0).val = n * 512 + p.val → (i 1).val = q.val →
      x0 (ix2 p q) = a i)
    (h1 : ∀ (p : Fin 512) (i : S16384x1.Idx), (i 0).val = n * 512 + p.val → x1 (ix2 p (0 : Fin 1)) = g i)
    (j : S512x3136.Idx) (i : S16384x3136.Idx) (hi0 : (i 0).val = n * 512 + (j 0).val) (hi1 : (i 1).val = (j 1).val) :
    k1_pay1 x0 x1 j = scaleArr a g i := by
  obtain ⟨p, q, rfl⟩ : ∃ (p : Fin 512) (q : Fin 3136), j = ix2 p q := ⟨j 0, j 1, eq_ix2 j⟩
  rw [pay_apply, h0 p q i hi0 hi1]
  unfold scaleArr
  rw [h1 p (ix2 (⟨(i 0).val, (i 0).isLt⟩ : Fin 16384) (0 : Fin 1)) hi0]

/-- WHAT POINT t WRITES BACK is its block of the matrix scaled row by row. -/
theorem flushed_eq (c : Dev nD) (t : Fin cfg1.N) :
    (dat1 V c).flushed 2 t
      = ((cfg1.win 2).blk t).view.read (Elt Ideal) (scaleArr (V c main_v0) (V c main_v17)) := by
  show (cfg1.win 2).cut (grid1.coords t) ((dat1 V c).after 2 t) = _
  rw [after1_2]
  unfold out1_2
  rw [View.canon_unit_zero hz]
  simp only [View.ld_unit_zero (S := S512x3136) hz, View.ld_unit_zero (S := S512x1) hz]
  obtain ⟨e0, e1, e2, e3, e4, e5⟩ := idx_facts t
  funext j
  show k1_pay1 (iblk1 V c 0 t) (iblk1 V c 1 t) j
      = scaleArr (V c main_v0) (V c main_v17) (((cfg1.win 2).blk t).view.emb j)
  refine block_eq (V c main_v0) (V c main_v17) (win1_2.index t (0 : Fin 2)) _ _ ?_ ?_ j _ ?_ ?_
  · intro p q i hi0 hi1
    show V c main_v0 (((cfg1.win 0).blk t).view.emb (ix2 p q)) = V c main_v0 i
    refine congrArg _ (funext fun a => Fin.ext ?_)
    match a with
    | ⟨0, _⟩ => show win1_0.index t (0 : Fin 2) * 512 + 1 * p.val = (i 0).val; omega
    | ⟨1, _⟩ => show win1_0.index t (1 : Fin 2) * 3136 + 1 * q.val = (i 1).val; omega
  · intro p i hi0
    show V c main_v17 (((cfg1.win 1).blk t).view.emb (ix2 p (0 : Fin 1))) = V c main_v17 i
    refine congrArg _ (funext fun a => Fin.ext ?_)
    match a with
    | ⟨0, _⟩ => show win1_1.index t (0 : Fin 2) * 512 + 1 * p.val = (i 0).val; omega
    | ⟨1, _⟩ =>
      show win1_1.index t (1 : Fin 2) * 1 + 1 * 0 = (i 1).val
      have := (i 1).isLt
      have h1 : (i 1).val < 1 := this
      omega
  · show win1_2.index t (0 : Fin 2) * 512 + 1 * (j 0).val = win1_2.index t (0 : Fin 2) * 512 + (j 0).val; omega
  · show win1_2.index t (1 : Fin 2) * 3136 + 1 * (j 1).val = (j 1).val; omega

/-- An index of the output array is in point t's block iff each coordinate is in the block's range. -/
theorem mem_blk (t : Fin cfg1.N) (i : S16384x3136.Idx) :
    i ∈ ((cfg1.win 2).blk t).view.set ↔ ∀ a : Fin 2, win1_2.index t a * S512x3136.size a ≤ (i a).val
      ∧ (i a).val < win1_2.index t a * S512x3136.size a + S512x3136.size a := by
  show i ∈ ((View.whole main_v18).slice (win1_2.rect t)).set ↔ _
  rw [View.set_slice_whole, Rect.mem_set_unit]
  exact Iff.rfl

/-- The 32 blocks of 512 rows cover the 16384 rows. -/
theorem cover (i : S16384x3136.Idx) :
    ∃ t : Fin cfg1.N, (cfg1.win 2).flush t = true ∧ i ∈ ((cfg1.win 2).blk t).view.set := by
  have hi0 : (i 0).val < 16384 := (i 0).isLt
  have hi1 : (i 1).val < 3136 := (i 1).isLt
  obtain ⟨t, ht⟩ := idx_onto ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 3136 ≤ (i 1).val ∧ (i 1).val < win1_2.index t (1 : Fin 2) * 3136 + 3136
    omega

/-- THE OUTPUT ARRAY after the region: the pixel matrix as entered, scaled row by row by the column of factors as
    entered. -/
theorem final (c : Dev nD) :
    (dat1 V c).arrAt 2 cfg1.N = scaleArr (V c main_v0) (V c main_v17) :=
  (dat1 V c).arrAt_eq_of_cover 2 _ (fun t _ => flushed_eq V c t) cover

end Cert.KernelIdeal.ScaleRegion

end
-- ==== Proof.KernelFold.lean ====
/-
  The kernel program's result array as a function of its three arguments, read back through the program: the last
  reshape of the second region's output; that output is the pixel matrix scaled by the column of factors the
  region was entered with; the column of factors is the shared chain of the two columns the first region left (row
  means and row maxima of the pixel matrix), reshaped to tables; the pixel matrix is the reshaped input.
-/
import proofs.«180165_j8615704396004_1_alg».proof.Proof.Gen.KernelIdeal.Frame
import proofs.«180165_j8615704396004_1_alg».proof.Proof.PoolRegion
import proofs.«180165_j8615704396004_1_alg».proof.Proof.ScaleRegion
import proofs.«180165_j8615704396004_1_alg».proof.Proof.Spec
import Idealize.ShloMosaic.Lib.StableHlo.Run

set_option maxRecDepth 16384

noncomputable section

namespace Cert.KernelIdeal.Fold

open Cert.KernelIdeal Cert.KernelIdeal.Gen Cert.Cam
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The pixel matrix the first region is entered with is the input reshaped to rows by pixels. -/
theorem entry_pixels (c : Dev nD) :
    V1 m ρ c main_v0
      = shapeCast S16384x3136 (m ((c : Thread nD τ).loc main_arg0)) shapeCasts_S32x512x56x56_S16384x3136 := by
  show StableHlo.after hostOps0 (W0 m ρ c) (Proc.devRef .tc main_v0) = _
  after_results <;> rfl

/-- The first region leaves the pixel matrix as it found it, -/
theorem pool_pixels (c : Dev nD) : W2 m ρ c (Proc.devRef .tc main_v0) = V1 m ρ c main_v0 :=
  (W2_arr m ρ c 0).trans (PoolRegion.kept0 (V1 m ρ) c)

/-- its first output at the column of row means, -/
theorem pool_avg (c : Dev nD) : W2 m ρ c (Proc.devRef .tc main_v1_0) = avgCol (V1 m ρ c main_v0) :=
  (W2_arr m ρ c 1).trans (PoolRegion.final_avg (V1 m ρ) c)

/-- its second at the column of row maxima, -/
theorem pool_max (c : Dev nD) : W2 m ρ c (Proc.devRef .tc main_v1_1) = maxCol (V1 m ρ c main_v0) :=
  (W2_arr m ρ c 2).trans (PoolRegion.final_max (V1 m ρ) c)

/-- and the two weight arrays as launched. -/
theorem pool_w1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results <;> rfl

theorem pool_w2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results <;> rfl

/-- The host operations between the regions do not write the pixel matrix. -/
theorem mid_pixels (c : Dev nD) : V7 m ρ c main_v0 = W2 m ρ c (Proc.devRef .tc main_v0) := by
  show StableHlo.after hostOps1_4 (StableHlo.after hostOps1_3 (StableHlo.after hostOps1_2 (StableHlo.after hostOps1_1
    (StableHlo.after hostOps1 (W2 m ρ c))))) (Proc.devRef .tc main_v0) = _
  after_results <;> rfl

set_option maxHeartbeats 2000000 in
/-- The column of factors the second region is entered with: the two columns the first region left, reshaped to
    tables, through the shared chain with the two weight arrays, reshaped to a column. -/
theorem mid_factors (c : Dev nD) :
    V7 m ρ c main_v17
      = shapeCast S16384x1 (gate dot_S32x512_S32x512_S32x32_1_1_0_0_n_n dot_S32x32_S512x32_S32x512_1_1_0_0_n_n
          bcast_S_S32x512 bcast_S_S32x32
          (shapeCast S32x512 (W2 m ρ c (Proc.devRef .tc main_v1_0)) shapeCasts_S16384x1_S32x512)
          (shapeCast S32x512 (W2 m ρ c (Proc.devRef .tc main_v1_1)) shapeCasts_S16384x1_S32x512)
          (W2 m ρ c (Proc.devRef .tc main_arg1)) (W2 m ρ c (Proc.devRef .tc main_arg2)))
          shapeCasts_S32x512_S16384x1 := by
  show StableHlo.after hostOps1_4 (StableHlo.after hostOps1_3 (StableHlo.after hostOps1_2 (StableHlo.after hostOps1_1
    (StableHlo.after hostOps1 (W2 m ρ c))))) (Proc.devRef .tc main_v17) = _
  after_results <;> rfl

/-- The second region's output array: the pixel matrix scaled row by row by the column of factors. -/
theorem scale_out (c : Dev nD) :
    W8 m ρ c (Proc.devRef .tc main_v18) = scaleArr (V7 m ρ c main_v0) (V7 m ρ c main_v17) :=
  (W8_arr m ρ c 2).trans (ScaleRegion.final (V7 m ρ) c)

/-- The result is that array reshaped to the input's four axes. -/
theorem last_reshape (c : Dev nD) :
    W9 m ρ c (Proc.devRef .tc main_v19)
      = shapeCast S32x512x56x56 (W8 m ρ c (Proc.devRef .tc main_v18)) shapeCasts_S16384x3136_S32x512x56x56 := by
  show StableHlo.after hostOps2 (W8 m ρ c) (Proc.devRef .tc main_v19) = _
  after_results <;> rfl

/-- THE RESULT ARRAY, as a function of the three arguments. -/
theorem result_eq (c : Dev nD) :
    W9 m ρ c (Proc.devRef .tc main_v19)
      = shapeCast S32x512x56x56
          (scaleArr
            (shapeCast S16384x3136 (m ((c : Thread nD τ).loc main_arg0)) shapeCasts_S32x512x56x56_S16384x3136)
            (shapeCast S16384x1 (gate dot_S32x512_S32x512_S32x32_1_1_0_0_n_n dot_S32x32_S512x32_S32x512_1_1_0_0_n_n
              bcast_S_S32x512 bcast_S_S32x32
              (shapeCast S32x512 (avgCol (shapeCast S16384x3136 (m ((c : Thread nD τ).loc main_arg0))
                shapeCasts_S32x512x56x56_S16384x3136)) shapeCasts_S16384x1_S32x512)
              (shapeCast S32x512 (maxCol (shapeCast S16384x3136 (m ((c : Thread nD τ).loc main_arg0))
                shapeCasts_S32x512x56x56_S16384x3136)) shapeCasts_S16384x1_S32x512)
              (m ((c : Thread nD τ).loc main_arg1)) (m ((c : Thread nD τ).loc main_arg2)))
              shapeCasts_S32x512_S16384x1))
          shapeCasts_S16384x3136_S32x512x56x56 := by
  rw [last_reshape, scale_out, mid_factors, mid_pixels, pool_pixels, pool_avg, pool_max, pool_w1, pool_w2, entry_pixels]

end Cert.KernelIdeal.Fold

end
-- ==== Proof.SpecPool.lean ====
/-
  The row means and row maxima of the pixel matrix, laid out as a [32, 512] table, are the sums and the maxima
  over the two pixel axes of the four-axis input.
-/
import proofs.«180165_j8615704396004_1_alg».proof.Proof.Spec
import Idealize.ShloMosaic.Lib.Pipeline.Value

noncomputable section

namespace Cert.Cam

open Idealize.ShloMosaic Idealize.ShloMosaic.ValueIdx

/-- The input index at batch `b`, channel `ch` and pixel `k`: height `k / 56`, width `k % 56`. -/
private def px (b : Fin 32) (ch : Fin 512) (k : Fin 3136) : X4.Idx :=
  ix4 b ch (⟨k.val / 56, by have := k.isLt; omega⟩ : Fin 56) (⟨k.val % 56, Nat.mod_lt _ (by decide)⟩ : Fin 56)

/-- A pixel is determined by its quotient and remainder by 56. -/
private theorem px_injective (b : Fin 32) (ch : Fin 512) : Function.Injective (px b ch) := by
  intro k k' e
  have e2 : k.val / 56 = k'.val / 56 := congrArg (fun i : X4.Idx => (i 2).val) e
  have e3 : k.val % 56 = k'.val % 56 := congrArg (fun i : X4.Idx => (i 3).val) e
  exact Fin.ext (by omega)

/-- The input indices whose batch and channel are `b` and `ch` are exactly the 3136 pixels of that pair: an index
    (b, ch, h, w) is the pixel `h * 56 + w`. -/
private theorem filter_drop_eq_image (hred : X4.ReducesTo [2, 3] C2) (b : Fin 32) (ch : Fin 512)
    [DecidablePred fun i : X4.Idx => hred.drop i = ix2 b ch] :
    (Finset.univ.filter fun i : X4.Idx => hred.drop i = ix2 b ch) = Finset.univ.image (px b ch) := by
  ext i
  simp only [Finset.mem_filter, Finset.mem_univ, true_and, Finset.mem_image]
  constructor
  · intro hi
    have h0 : (hred.drop i 0 : Nat) = i 0 := hred.drop_apply_val_of_eq i 0 0
    have h1 : (hred.drop i 1 : Nat) = i 1 := hred.drop_apply_val_of_eq i 1 1
    rw [hi] at h0 h1
    have l2 : (i 2).val < 56 := (i 2).isLt
    have l3 : (i 3).val < 56 := (i 3).isLt
    refine ⟨⟨(i 2).val * 56 + (i 3).val, by omega⟩, ?_⟩
    funext a
    match a with
    | ⟨0, _⟩ => exact Fin.ext h0
    | ⟨1, _⟩ => exact Fin.ext h1
    | ⟨2, _⟩ => exact Fin.ext (by show ((i 2).val * 56 + (i 3).val) / 56 = (i 2).val; omega)
    | ⟨3, _⟩ => exact Fin.ext (by show ((i 2).val * 56 + (i 3).val) % 56 = (i 3).val; omega)
  · rintro ⟨k, rfl⟩
    funext a
    match a with
    | ⟨0, _⟩ => exact Fin.ext (hred.drop_apply_val_of_eq (px b ch k) 0 0)
    | ⟨1, _⟩ => exact Fin.ext (hred.drop_apply_val_of_eq (px b ch k) 1 1)

/-- The pixel matrix at row `b * 512 + ch` and column `k` is the input at (b, ch, k / 56, k % 56): both sit at
    row-major position `(b * 512 + ch) * 3136 + k`. -/
private theorem cast_px (x : FVec Ideal X4 .f32) (hx : X4.ShapeCasts X2) (b : Fin 32) (ch : Fin 512) (r : Fin 16384)
    (hr : r.val = b.val * 512 + ch.val) (k : Fin 3136) :
    shapeCast X2 x hx (ix2 r k) = x (px b ch k) := by
  refine shapeCast_apply x hx (ix2 r k) (px b ch k) ?_
  rw [Shape.rowMajor_val_four, Shape.rowMajor_val_two]
  show ((b.val * 512 + ch.val) * 56 + k.val / 56) * 56 + k.val % 56 = r.val * 3136 + k.val
  have := k.isLt
  omega

/-- The column of one number per row, laid out as the [32, 512] table, reads row `b * 512 + ch` at (b, ch). -/
private theorem cast_col (g : R1.Idx → EReal) (hc : R1.ShapeCasts C2) (b : Fin 32) (ch : Fin 512) :
    shapeCast C2 g hc (ix2 b ch)
      = g (ix2 (⟨b.val * 512 + ch.val, by have := b.isLt; have := ch.isLt; omega⟩ : Fin 16384) (0 : Fin 1)) := by
  refine shapeCast_apply g hc (ix2 b ch) _ ?_
  rw [Shape.rowMajor_val_two, Shape.rowMajor_val_two]
  show (b.val * 512 + ch.val) * 1 + 0 = b.val * 512 + ch.val
  omega

/-- The table of row means is the host's sum over height and width divided by 3136. -/
theorem avg_eq (x : FVec Ideal X4 .f32) (hx : X4.ShapeCasts X2) (hc : R1.ShapeCasts C2)
    (hred : X4.ReducesTo [2, 3] C2) (hS : 0 < S0.numel)
    (hb : S0.BroadcastsInDim C2 (![] : Fin 0 → Fin C2.rank)) :
    shapeCast C2 (avgCol (shapeCast X2 x hx)) hc
      = Host.divf (Host.reduceAdd x (constant (F := Ideal) S0 .f32 0x00000000#32) hred hS)
          (broadcastInDim C2 ![] hb (constant (F := Ideal) S0 .f32 0x45440000#32)) := by
  funext j
  obtain ⟨b, ch, rfl⟩ : ∃ (b : Fin 32) (ch : Fin 512), j = ix2 b ch := ⟨j 0, j 1, eq_ix2 j⟩
  rw [cast_col]
  show Ideal.div (∑ k : Fin 3136, shapeCast X2 x hx (ix2 (⟨b.val * 512 + ch.val, _⟩ : Fin 16384) k))
        (Ideal.ofBits .f32 0x45440000#32)
      = Ideal.div (Ideal.ofBits .f32 0x00000000#32
          + ∑ i ∈ Finset.univ.filter (fun i : X4.Idx => hred.drop i = ix2 b ch), x i) (Ideal.ofBits .f32 0x45440000#32)
  rw [filter_drop_eq_image, Finset.sum_image (fun k _ k' _ e => px_injective b ch e), Ideal.ofBits_zero_f32, zero_add]
  congr 1
  exact Finset.sum_congr rfl fun k _ => cast_px x hx b ch _ rfl k

/-- The table of row maxima is the host's maximum over height and width, from minus infinity. -/
theorem max_eq (x : FVec Ideal X4 .f32) (hx : X4.ShapeCasts X2) (hc : R1.ShapeCasts C2)
    (hred : X4.ReducesTo [2, 3] C2) (hS : 0 < S0.numel) :
    shapeCast C2 (maxCol (shapeCast X2 x hx)) hc
      = Host.reduce FloatOps.maximumf x (constant (F := Ideal) S0 .f32 0xFF800000#32) hred hS := by
  funext j
  obtain ⟨b, ch, rfl⟩ : ∃ (b : Fin 32) (ch : Fin 512), j = ix2 b ch := ⟨j 0, j 1, eq_ix2 j⟩
  rw [cast_col, Host.reduce_eq_fold, filter_drop_eq_image,
    Finset.fold_image (fun k _ k' _ e => px_injective b ch e)]
  show (Finset.univ : Finset (Fin 3136)).fold max (Ideal.ofBits .f32 0xFF800000#32)
        (fun k => shapeCast X2 x hx (ix2 (⟨b.val * 512 + ch.val, _⟩ : Fin 16384) k))
      = (Finset.univ : Finset (Fin 3136)).fold max (Ideal.ofBits .f32 0xFF800000#32) (fun k => x (px b ch k))
  congr 1
  exact funext fun k => cast_px x hx b ch _ rfl k

end Cert.Cam

end
-- ==== Proof.SpecScale.lean ====
/-
  Scaling every row of the pixel matrix by its row's factor, and laying the result out on four axes, is the
  four-axis input times the [32, 512] table of factors broadcast over height and width.
-/
import proofs.«180165_j8615704396004_1_alg».proof.Proof.Spec
import Idealize.ShloMosaic.Lib.Pipeline.Value

noncomputable section

namespace Cert.Cam

open Idealize.ShloMosaic Idealize.ShloMosaic.ValueIdx

/-- Row scaling on the matrix layout is the broadcast product on the four-axis layout. -/
theorem scale_eq (x : FVec Ideal X4 .f32) (g : FVec Ideal C2 .f32) (hx : X4.ShapeCasts X2) (hg : C2.ShapeCasts R1)
    (hy : X2.ShapeCasts X4) (hb3 : C2.BroadcastsInDim C4 (![0, 1] : Fin 2 → Fin C4.rank))
    (hb4 : C4.BroadcastsInDim X4 (![0, 1, 2, 3] : Fin 4 → Fin X4.rank)) :
    shapeCast X4 (scaleArr (shapeCast X2 x hx) (shapeCast R1 g hg)) hy
      = mulf x (broadcastInDim X4 ![0, 1, 2, 3] hb4 (broadcastInDim C4 ![0, 1] hb3 g)) := by
  funext j
  obtain ⟨b, ch, p, q, rfl⟩ : ∃ (b : Fin 32) (ch : Fin 512) (p : Fin 56) (q : Fin 56), j = ix4 b ch p q :=
    ⟨j 0, j 1, j 2, j 3, eq_ix4 j⟩
  have hb := b.isLt
  have hch := ch.isLt
  have hp := p.isLt
  have hq := q.isLt
  -- the row (batch and channel merged) and the column (height and width merged) of this entry
  have hr : b.val * 512 + ch.val < 16384 := by omega
  have hk : p.val * 56 + q.val < 3136 := by omega
  -- the outer reshape reads the matrix at (row, column)
  have e1 := shapeCast_apply (scaleArr (shapeCast X2 x hx) (shapeCast R1 g hg)) hy (ix4 b ch p q)
    (ix2 (⟨b.val * 512 + ch.val, hr⟩ : Fin 16384) (⟨p.val * 56 + q.val, hk⟩ : Fin 3136)) (by
      rw [Shape.rowMajor_val_two, Shape.rowMajor_val_four]
      show (b.val * 512 + ch.val) * 3136 + (p.val * 56 + q.val) = ((b.val * 512 + ch.val) * 56 + p.val) * 56 + q.val
      omega)
  -- the inner reshape of the input at (row, column) reads the input at (b, ch, p, q) again
  have e2 := shapeCast_apply x hx
    (ix2 (⟨b.val * 512 + ch.val, hr⟩ : Fin 16384) (⟨p.val * 56 + q.val, hk⟩ : Fin 3136)) (ix4 b ch p q) (by
      rw [Shape.rowMajor_val_two, Shape.rowMajor_val_four]
      show ((b.val * 512 + ch.val) * 56 + p.val) * 56 + q.val = (b.val * 512 + ch.val) * 3136 + (p.val * 56 + q.val)
      omega)
  -- the reshape of the factors at (row, 0) reads the table at (b, ch)
  have e3 := shapeCast_apply g hg
    (ix2 (⟨b.val * 512 + ch.val, hr⟩ : Fin 16384) (0 : Fin 1)) (ix2 b ch) (by
      rw [Shape.rowMajor_val_two, Shape.rowMajor_val_two]
      show b.val * 512 + ch.val = (b.val * 512 + ch.val) * 1 + 0
      omega)
  -- the two broadcasts read the table at (b, ch)
  have e4 := broadcastInDim_apply (![0, 1, 2, 3] : Fin 4 → Fin X4.rank) hb4 (broadcastInDim C4 ![0, 1] hb3 g)
    (ix4 b ch p q) (ix4 b ch (0 : Fin 1) (0 : Fin 1)) (fun a => match a with
      | ⟨0, _⟩ => by
        show b.val = if (32 : Nat) = 1 then 0 else b.val
        rw [if_neg (by decide)]
      | ⟨1, _⟩ => by
        show ch.val = if (512 : Nat) = 1 then 0 else ch.val
        rw [if_neg (by decide)]
      | ⟨2, _⟩ => by
        show (0 : Nat) = if (1 : Nat) = 1 then 0 else p.val
        rw [if_pos rfl]
      | ⟨3, _⟩ => by
        show (0 : Nat) = if (1 : Nat) = 1 then 0 else q.val
        rw [if_pos rfl])
  have e5 := broadcastInDim_apply (![0, 1] : Fin 2 → Fin C4.rank) hb3 g
    (ix4 b ch (0 : Fin 1) (0 : Fin 1)) (ix2 b ch) (fun a => match a with
      | ⟨0, _⟩ => by
        show b.val = if (32 : Nat) = 1 then 0 else b.val
        rw [if_neg (by decide)]
      | ⟨1, _⟩ => by
        show ch.val = if (512 : Nat) = 1 then 0 else ch.val
        rw [if_neg (by decide)])
  rw [e1, mulf_apply, e4, e5]
  show shapeCast X2 x hx (ix2 (⟨b.val * 512 + ch.val, hr⟩ : Fin 16384) (⟨p.val * 56 + q.val, hk⟩ : Fin 3136))
      * shapeCast R1 g hg (ix2 (⟨b.val * 512 + ch.val, hr⟩ : Fin 16384) (0 : Fin 1))
    = x (ix4 b ch p q) * g (ix2 b ch)
  rw [e2, e3]

end Cert.Cam

end
-- ==== Proof.Bridge.lean ====
/-
  The two programs compute one function. The kernel program's result, as a function of its arguments, is the pixel
  matrix scaled row by row by the shared chain of its row means and row maxima, on the input's four axes; the
  reference's last stage is the input times the same chain of its means and maxima over height and width, broadcast
  over height and width. The means agree and the maxima agree (a sum, or a maximum, over the 3136 pixels of a row
  is the one over height and width, in another order); the chain is the same function of them; and scaling by rows
  on the matrix layout is the broadcast product on four axes.
-/
import proofs.«180165_j8615704396004_1_alg».proof.Proof.KernelFold
import proofs.«180165_j8615704396004_1_alg».proof.Proof.SpecPool
import proofs.«180165_j8615704396004_1_alg».proof.Proof.SpecScale
import proofs.«180165_j8615704396004_1_alg».proof.Proof.Gen.ReferenceIdeal.Read

noncomputable section

namespace Cert.Bridge

open Cert.Cam Idealize.ShloMosaic

/-- The two programs name the dimension numbers of the first matrix product by records of their own; they are one
    record. -/
theorem dot1_eq : Cert.KernelIdeal.dot_S32x512_S32x512_S32x32_1_1_0_0_n_n = Cert.ReferenceIdeal.dot_S32x512_S32x512_S32x32_1_1_0_0_n_n := rfl

/-- The same for the second matrix product. -/
theorem dot2_eq : Cert.KernelIdeal.dot_S32x32_S512x32_S32x512_1_1_0_0_n_n = Cert.ReferenceIdeal.dot_S32x32_S512x32_S32x512_1_1_0_0_n_n := rfl

/-- The kernel program's result, as a function of the three arguments, is the reference's last stage. -/
theorem value_eq (x : FVec Ideal X4 .f32) (w1 : FVec Ideal C2 .f32) (w2 : FVec Ideal V2 .f32) :
    shapeCast Cert.KernelIdeal.S32x512x56x56
        (scaleArr (shapeCast Cert.KernelIdeal.S16384x3136 x Cert.KernelIdeal.Facts₀.shapeCasts_S32x512x56x56_S16384x3136)
          (shapeCast Cert.KernelIdeal.S16384x1 (gate Cert.KernelIdeal.dot_S32x512_S32x512_S32x32_1_1_0_0_n_n Cert.KernelIdeal.dot_S32x32_S512x32_S32x512_1_1_0_0_n_n
            Cert.KernelIdeal.Facts₀.bcast_S_S32x512 Cert.KernelIdeal.Facts₀.bcast_S_S32x32
            (shapeCast Cert.KernelIdeal.S32x512 (avgCol (shapeCast Cert.KernelIdeal.S16384x3136 x Cert.KernelIdeal.Facts₀.shapeCasts_S32x512x56x56_S16384x3136)) Cert.KernelIdeal.Facts₀.shapeCasts_S16384x1_S32x512)
            (shapeCast Cert.KernelIdeal.S32x512 (maxCol (shapeCast Cert.KernelIdeal.S16384x3136 x Cert.KernelIdeal.Facts₀.shapeCasts_S32x512x56x56_S16384x3136)) Cert.KernelIdeal.Facts₀.shapeCasts_S16384x1_S32x512)
            w1 w2)
            Cert.KernelIdeal.Facts₀.shapeCasts_S32x512_S16384x1))
        Cert.KernelIdeal.Facts₀.shapeCasts_S16384x3136_S32x512x56x56
      = Cert.ReferenceIdeal.Read.val_main_v19 (F := Ideal) x w1 w2 := by
  rw [avg_eq x _ _ Cert.ReferenceIdeal.Facts₀.reducesTo_S32x512x56x56_S32x512_d2_3 Cert.ReferenceIdeal.Facts₀.h_S_ Cert.ReferenceIdeal.Facts₀.bcast_S_S32x512,
    max_eq x _ _ Cert.ReferenceIdeal.Facts₀.reducesTo_S32x512x56x56_S32x512_d2_3 Cert.ReferenceIdeal.Facts₀.h_S_,
    scale_eq x _ _ _ _ Cert.ReferenceIdeal.Facts₀.bcast_S32x512_S32x512x1x1_0_1 Cert.ReferenceIdeal.Facts₀.bcast_S32x512x1x1_S32x512x56x56_0_1_2_3,
    dot1_eq, dot2_eq]
  rfl

end Cert.Bridge

end
-- ==== Proof.lean ====
/-
  A channel-attention block: the input x [32, 512, 56, 56] is pooled over its pixels into a mean and a maximum per
  batch and channel; both tables go through one small chain of two matrix products with a rectifier between them,
  the results are added and passed through the logistic function; x is multiplied, pixel by pixel, by the factor
  of its batch and channel. The kernel program does the pooling and the final product in two kernel regions over
  the input read as a matrix of 16384 rows by 3136 pixels, with the chain between them on the host; the reference
  does everything on the host over the four axes.

  The frames of the two kernel programs are the generated ones; the reference's frame is its generated run with the
  result dropped. No operation was rewritten by the idealization, so there is nothing to preserve. For the
  equivalence, the kernel program's run names its result (the generated launch called again with the result read
  in the post), the result is read back through the program to a function of the arguments, and that function is
  the reference's last stage: a row's sum (maximum) over its 3136 pixels is the sum (maximum) over height and
  width, the chain is one function applied to equal tables, and scaling rows of the matrix is the broadcast
  product on four axes. No step needs the inputs to be finite: only re-indexing of sums and maxima is used.
-/
import proofs.«180165_j8615704396004_1_alg».proof.Defs
import proofs.«180165_j8615704396004_1_alg».proof.Proof.Gen.Kernel
import proofs.«180165_j8615704396004_1_alg».proof.Proof.Gen.Kernel.Frame
import proofs.«180165_j8615704396004_1_alg».proof.Proof.Gen.KernelIdeal
import proofs.«180165_j8615704396004_1_alg».proof.Proof.Gen.KernelIdeal.Frame
import proofs.«180165_j8615704396004_1_alg».proof.Proof.Gen.ReferenceIdeal
import proofs.«180165_j8615704396004_1_alg».proof.Proof.Gen.ReferenceIdeal.Run
import proofs.«180165_j8615704396004_1_alg».proof.Proof.Gen.ReferenceIdeal.Read
import proofs.«180165_j8615704396004_1_alg».proof.Proof.Gen.Pre_finite_inputs
import proofs.«180165_j8615704396004_1_alg».proof.Proof.KernelRun
import proofs.«180165_j8615704396004_1_alg».proof.Proof.KernelFold
import proofs.«180165_j8615704396004_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result array: the kernel program's, read back to a function of the arguments,
    is the reference's last stage of the same arguments. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans
    ((Cert.KernelIdeal.Fold.result_eq m ρ c).trans (Cert.Bridge.value_eq _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
